-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x64 : Shape := ⟨4, ![16, 64, 64, 64]⟩
abbrev S_ : Shape := ⟨0, ![]⟩

class Facts : Prop where
  bcast_S_S16x64x64x64 : S_.BroadcastsInDim S16x64x64x64 (![] : Fin 0 → Fin S16x64x64x64.rank)
  reducesTo_S16x64x64x64_S_d0_1_2_3 : S16x64x64x64.ReducesTo [0, 1, 2, 3] S_
  h_S_ : 0 < S_.numel

variable [Facts]

def fn {F : FTy → Type} [FloatOps F] (main_arg0 : FVec F S16x64x64x64 .f32) (main_arg1 : FVec F S16x64x64x64 .f32) : IVec S_ 1 :=
  let main_v0 : FVec F S16x64x64x64 .f32 := Host.absf main_arg0
  let main_cst : FVec F S_ .f32 := constant S_ .f32 0x7F800000#32
  let main_v1 : FVec F S16x64x64x64 .f32 := broadcastInDim S16x64x64x64 ![] bcast_S_S16x64x64x64 main_cst
  let main_v2 : IVec S16x64x64x64 1 := cmpf .olt main_v0 main_v1
  let main_c : IVec S_ 1 := constantI S_ 1 1#1
  let main_v3 : IVec S_ 1 := (fun x v => Host.reduce IntOp.andi x v reducesTo_S16x64x64x64_S_d0_1_2_3 h_S_) main_v2 main_c
  let main_v4 : FVec F S16x64x64x64 .f32 := Host.absf main_arg1
  let main_cst_0 : FVec F S_ .f32 := constant S_ .f32 0x7F800000#32
  let main_v5 : FVec F S16x64x64x64 .f32 := broadcastInDim S16x64x64x64 ![] bcast_S_S16x64x64x64 main_cst_0
  let main_v6 : IVec S16x64x64x64 1 := cmpf .olt main_v4 main_v5
  let main_c_1 : IVec S_ 1 := constantI S_ 1 1#1
  let main_v7 : IVec S_ 1 := (fun x v => Host.reduce IntOp.andi x v reducesTo_S16x64x64x64_S_d0_1_2_3 h_S_) main_v6 main_c_1
  let main_v8 : IVec S_ 1 := andi main_v3 main_v7
  main_v8
-- ==== Kernel.lean ====
abbrev S16x64x64x64 : Shape := ⟨4, ![16, 64, 64, 64]⟩
abbrev S16x64x4096 : Shape := ⟨3, ![16, 64, 4096]⟩
abbrev S4x64x4096 : Shape := ⟨3, ![4, 64, 4096]⟩

abbrev nBuf : Space → Nat
  | .hbm => 8
  | .vmem => 8
  | .smem => 0
  | _ => 0

abbrev bufTy : (tb : Table) → Fin (tcTables nBuf tb) → BufTy
  | .hbm, ⟨0, _⟩ => ⟨S16x64x64x64, .f32⟩
  | .hbm, ⟨1, _⟩ => ⟨S16x64x64x64, .f32⟩
  | .hbm, ⟨2, _⟩ => ⟨S16x64x4096, .f32⟩
  | .hbm, ⟨3, _⟩ => ⟨S16x64x4096, .f32⟩
  | .hbm, ⟨4, _⟩ => ⟨S16x64x4096, .f32⟩
  | .hbm, ⟨5, _⟩ => ⟨S16x64x4096, .f32⟩
  | .hbm, ⟨6, _⟩ => ⟨S16x64x64x64, .f32⟩
  | .hbm, ⟨7, _⟩ => ⟨S16x64x64x64, .f32⟩
  | .local _ .vmem, ⟨0, _⟩ => ⟨S4x64x4096, .f32⟩
  | .local _ .vmem, ⟨1, _⟩ => ⟨S4x64x4096, .f32⟩
  | .local _ .vmem, ⟨2, _⟩ => ⟨S4x64x4096, .f32⟩
  | .local _ .vmem, ⟨3, _⟩ => ⟨S4x64x4096, .f32⟩
  | .local _ .vmem, ⟨4, _⟩ => ⟨S4x64x4096, .f32⟩
  | .local _ .vmem, ⟨5, _⟩ => ⟨S4x64x4096, .f32⟩
  | .local _ .vmem, ⟨6, _⟩ => ⟨S4x64x4096, .f32⟩
  | .local _ .vmem, ⟨7, _⟩ => ⟨S4x64x4096, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x64x64x64_S16x64x4096 : S16x64x64x64.ShapeCasts S16x64x4096
  inb_S4x64x4096_S4x64x4096_0_0_0 : ∀ a, (![0, 0, 0] : Fin 3 → Nat) a + S4x64x4096.size a ≤ S4x64x4096.size a
  h_S4x64x4096 : 0 < S4x64x4096.numel
  shapeCasts_S4x64x4096_S4x64x4096 : S4x64x4096.ShapeCasts S4x64x4096
  shapeCasts_S16x64x4096_S16x64x64x64 : S16x64x4096.ShapeCasts S16x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x4096.size a ≤ S16x64x4096.size a
  hwx0_0 : ∀ i : grid0.Coords, EltTy.bits .f32 = 32 ∨ (Rect.block (s := S16x64x4096) S4x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x4096.size a ≤ S16x64x4096.size a
  hwx0_1 : ∀ i : grid0.Coords, EltTy.bits .f32 = 32 ∨ (Rect.block (s := S16x64x4096) S4x64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x4096.size a ≤ S16x64x4096.size a
  hwx0_2 : ∀ i : grid0.Coords, EltTy.bits .f32 = 32 ∨ (Rect.block (s := S16x64x4096) S4x64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x64x4096.size a ≤ S16x64x4096.size a
  hwx0_3 : ∀ i : grid0.Coords, EltTy.bits .f32 = 32 ∨ (Rect.block (s := S16x64x4096) S4x64x4096.size (cc0_transform_3 i) (hinb0_3 i)).WholeWords (EltTy.packing .f32)

variable [Facts₀]

abbrev win0_0 : Pipeline.Window sig grid0 :=
  Pipeline.Window.ofSpec (Memref.whole main_v0) S4x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4x64x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S4x64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x64x64 : Shape := ⟨4, ![16, 64, 64, 64]⟩
abbrev S16x64x4096 : Shape := ⟨3, ![16, 64, 4096]⟩
abbrev S_ : Shape := ⟨0, ![]⟩
abbrev S16x4096 : Shape := ⟨2, ![16, 4096]⟩
abbrev S16x1x4096 : Shape := ⟨3, ![16, 1, 4096]⟩
abbrev S16x4096x4096 : Shape := ⟨3, ![16, 4096, 4096]⟩
abbrev S16x4096x1 : Shape := ⟨3, ![16, 4096, 1]⟩
abbrev S16 : Shape := ⟨1, ![16]⟩
abbrev S16x1 : Shape := ⟨2, ![16, 1]⟩

abbrev nBuf : Space → Nat
  | .hbm => 72
  | .vmem => 0
  | .smem => 0
  | _ => 0

abbrev bufTy : (tb : Table) → Fin (tcTables nBuf tb) → BufTy
  | .hbm, ⟨0, _⟩ => ⟨S16x64x64x64, .f32⟩
  | .hbm, ⟨1, _⟩ => ⟨S16x64x64x64, .f32⟩
  | .hbm, ⟨2, _⟩ => ⟨S16x64x4096, .f32⟩
  | .hbm, ⟨3, _⟩ => ⟨S16x64x4096, .f32⟩
  | .hbm, ⟨4, _⟩ => ⟨S16x64x4096, .f32⟩
  | .hbm, ⟨5, _⟩ => ⟨S_, .f32⟩
  | .hbm, ⟨6, _⟩ => ⟨S16x4096, .f32⟩
  | .hbm, ⟨7, _⟩ => ⟨S16x1x4096, .f32⟩
  | .hbm, ⟨8, _⟩ => ⟨S16x1x4096, .f32⟩
  | .hbm, ⟨9, _⟩ => ⟨S_, .f32⟩
  | .hbm, ⟨10, _⟩ => ⟨S16x1x4096, .f32⟩
  | .hbm, ⟨11, _⟩ => ⟨S16x1x4096, .f32⟩
  | .hbm, ⟨12, _⟩ => ⟨S16x64x4096, .f32⟩
  | .hbm, ⟨13, _⟩ => ⟨S16x64x4096, .f32⟩
  | .hbm, ⟨14, _⟩ => ⟨S16x64x4096, .f32⟩
  | .hbm, ⟨15, _⟩ => ⟨S_, .f32⟩
  | .hbm, ⟨16, _⟩ => ⟨S16x4096, .f32⟩
  | .hbm, ⟨17, _⟩ => ⟨S16x1x4096, .f32⟩
  | .hbm, ⟨18, _⟩ => ⟨S16x1x4096, .f32⟩
  | .hbm, ⟨19, _⟩ => ⟨S_, .f32⟩
  | .hbm, ⟨20, _⟩ => ⟨S16x1x4096, .f32⟩
  | .hbm, ⟨21, _⟩ => ⟨S16x1x4096, .f32⟩
  | .hbm, ⟨22, _⟩ => ⟨S16x64x4096, .f32⟩
  | .hbm, ⟨23, _⟩ => ⟨S16x64x4096, .f32⟩
  | .hbm, ⟨24, _⟩ => ⟨S16x4096x4096, .f32⟩
  | .hbm, ⟨25, _⟩ => ⟨S_, .f32⟩
  | .hbm, ⟨26, _⟩ => ⟨S16x4096x4096, .f32⟩
  | .hbm, ⟨27, _⟩ => ⟨S16x4096x4096, .f32⟩
  | .hbm, ⟨28, _⟩ => ⟨S_, .f32⟩
  | .hbm, ⟨29, _⟩ => ⟨S16x4096, .f32⟩
  | .hbm, ⟨30, _⟩ => ⟨S_, .f32⟩
  | .hbm, ⟨31, _⟩ => ⟨S16x4096, .f32⟩
  | .hbm, ⟨32, _⟩ => ⟨S16x4096, .f32⟩
  | .hbm, ⟨33, _⟩ => ⟨S16x4096x1, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S_, .f32⟩
  | .hbm, ⟨45, _⟩ => ⟨S16x4096, .f32⟩
  | .hbm, ⟨46, _⟩ => ⟨S16x4096, .f32⟩
  | .hbm, ⟨47, _⟩ => ⟨S_, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S16x1, .f32⟩
  | .hbm, ⟨53, _⟩ => ⟨S16x4096, .f32⟩
  | .hbm, ⟨54, _⟩ => ⟨S16x4096, .f32⟩
  | .hbm, ⟨55, _⟩ => ⟨S16x4096, .f32⟩
  | .hbm, ⟨56, _⟩ => ⟨S_, .f32⟩
  | .hbm, ⟨57, _⟩ => ⟨S16, .f32⟩
  | .hbm, ⟨58, _⟩ => ⟨S16x1, .f32⟩
  | .hbm, ⟨59, _⟩ => ⟨S16x4096, .f32⟩
  | .hbm, ⟨60, _⟩ => ⟨S16x4096, .f32⟩
  | .hbm, ⟨61, _⟩ => ⟨S_, .f32⟩
  | .hbm, ⟨62, _⟩ => ⟨S16x4096, .f32⟩
  | .hbm, ⟨63, _⟩ => ⟨S16x4096, .f32⟩
  | .hbm, ⟨64, _⟩ => ⟨S16x1x4096, .f32⟩
  | .hbm, ⟨65, _⟩ => ⟨S16x64x4096, .f32⟩
  | .hbm, ⟨66, _⟩ => ⟨S16x64x4096, .f32⟩
  | .hbm, ⟨67, _⟩ => ⟨S16x64x64x64, .f32⟩
  | .hbm, ⟨68, _⟩ => ⟨S16x1x4096, .f32⟩
  | .hbm, ⟨69, _⟩ => ⟨S16x64x4096, .f32⟩
  | .hbm, ⟨70, _⟩ => ⟨S16x64x4096, .f32⟩
  | .hbm, ⟨71, _⟩ => ⟨S16x64x64x64, .f32⟩
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]

class Facts₀ : Prop where
  shapeCasts_S16x64x64x64_S16x64x4096 : S16x64x64x64.ShapeCasts S16x64x4096
  reducesTo_S16x64x4096_S16x4096_d1 : S16x64x4096.ReducesTo [1] S16x4096
  h_S_ : 0 < S_.numel
  bcast_S16x4096_S16x1x4096_0_2 : S16x4096.BroadcastsInDim S16x1x4096 (![0, 2] : Fin 2 → Fin S16x1x4096.rank)
  bcast_S_S16x1x4096 : S_.BroadcastsInDim S16x1x4096 (![] : Fin 0 → Fin S16x1x4096.rank)
  bcast_S16x1x4096_S16x64x4096_0_1_2 : S16x1x4096.BroadcastsInDim S16x64x4096 (![0, 1, 2] : Fin 3 → Fin S16x64x4096.rank)
  bcast_S_S16x4096x4096 : S_.BroadcastsInDim S16x4096x4096 (![] : Fin 0 → Fin S16x4096x4096.rank)
  reducesTo_S16x4096x4096_S16x4096_d2 : S16x4096x4096.ReducesTo [2] S16x4096
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  reducesTo_S16x4096_S16_d1 : S16x4096.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x4096_0_1 : S16x1.BroadcastsInDim S16x4096 (![0, 1] : Fin 2 → Fin S16x4096.rank)
  shapeCasts_S16x64x4096_S16x64x64x64 : S16x64x4096.ShapeCasts S16x64x64x64
  dot_S16x64x4096_S16x64x4096_S16x4096x4096_1_1_2_2_0_0_wf : DotDims.WF S16x64x4096 S16x64x4096 S16x4096x4096 [1] [1] [2] [2] [0] [0]

variable [Facts₀]

def dot_S16x64x4096_S16x64x4096_S16x4096x4096_1_1_2_2_0_0 : DotDims S16x64x4096 S16x64x4096 S16x4096x4096 where
  lhsContracting := [1]
  rhsContracting := [1]
  lhsNonContracting := [2]
  rhsNonContracting := [2]
  lhsBatch := [0]
  rhsBatch := [0]
  wf := dot_S16x64x4096_S16x64x4096_S16x4096x4096_1_1_2_2_0_0_wf

class Facts : Prop extends Facts₀ where

variable [Facts]
-- ==== Proof.Spec.lean ====
/-
  What both programs compute, stated once.

  The two arguments are arrays of shape [16, 64, 64, 64]. Flatten the last two axes ([16, 64, 4096]), multiply every
  entry by the one number whose f32 word is 0x3F800800 — the dyadic 1 + 2⁻¹² = 1 + 1/4096 —, and restore the shape.
  `IsR` says an extended real is a real number: neither infinity.
-/
import Idealize.ShloMosaic.PureOps.Ideal
import Idealize.ShloMosaic.PureOps.Ideal.Laws

noncomputable section

namespace Cert.Spec

open Idealize.ShloMosaic

abbrev A4 : Shape := ⟨4, ![16, 64, 64, 64]⟩
abbrev A3 : Shape := ⟨3, ![16, 64, 4096]⟩

/-- An extended real that is a real number. -/
def IsR (x : EReal) : Prop := ∃ r : ℝ, x = (r : EReal)

/-- Every entry of the flattened array times the constant. -/
def scaleFlat {F : FTy → Type} [FloatOps F] (a : FVec F A3 .f32) : FVec F A3 .f32 :=
  fun i => FloatOps.mulf (a i) (FloatOps.ofBits .f32 0x3F800800#32)

/-- Flatten the two trailing axes, scale, restore the four axes. -/
def scaled {F : FTy → Type} [FloatOps F] (h1 : A4.ShapeCasts A3) (h2 : A3.ShapeCasts A4) (x : FVec F A4 .f32) :
    FVec F A4 .f32 :=
  shapeCast A4 (scaleFlat (shapeCast A3 x h1)) h2

end Cert.Spec

end
-- ==== Proof.FiniteInputs.lean ====
/-
  From the precondition to "every entry of both inputs is a real number".

  The precondition says, for each of the two arrays, that the conjunction over all entries of
  |x| < +∞ holds, and that both conjunctions hold. A conjunction over all entries that holds, holds at each
  entry; and an extended real whose absolute value max x (-x) lies strictly below ⊤ is neither ⊤ nor ⊥,
  hence a real number.
-/
import proofs.«133341_j89653147337302_1_alg».proof.Proof.Gen.Pre_finite_inputs
import proofs.«133341_j89653147337302_1_alg».proof.Proof.Spec
import Idealize.ShloMosaic.Lib.ReduceAll
import Idealize.ShloMosaic.Lib.IdealHost

noncomputable section

namespace Cert.Finite

open Idealize.ShloMosaic

/-- The f32 word 0x7F800000 denotes +∞. -/
theorem ofBits_inf_f32 : Ideal.ofBits .f32 0x7F800000#32 = (⊤ : EReal) := by
  simp [Ideal.ofBits, Ideal.ieee]

/-- An extended real whose absolute value max x (-x) is strictly below ⊤ is a real number. -/
theorem isR_of_abs_lt_top (x : EReal) (h : max x (-x) < ⊤) : Cert.Spec.IsR x := by
  induction x using EReal.rec with
  | bot => simp at h
  | coe r => exact ⟨r, rfl⟩
  | top => simp at h

/-- The elementwise test |x| < +∞, read back: it is 1 only at a real number. -/
theorem isR_of_cmp (x : Ideal .f32)
    (h : FloatOps.cmpf .olt (FloatOps.hostAbsf x) (FloatOps.ofBits (F := Ideal) .f32 0x7F800000#32) = 1#1) :
    Cert.Spec.IsR x := by
  apply isR_of_abs_lt_top
  rw [Ideal.cmpf_def, Ideal.hostAbsf_def, Ideal.absf_def, Ideal.ofBits_def, ofBits_inf_f32] at h
  by_contra hn
  simp [Ideal.cmp, hn] at h

/-- The result shape of a reduction over all axes has one index. -/
instance subsingleton_scalar_idx : Subsingleton Cert.Pre_finite_inputs.S_.Idx := ⟨fun a b => funext fun d => d.elim0⟩

/-- Under the precondition every entry of both inputs is a real number. -/
theorem real_of_pre (x0 x1 : FVec Ideal Cert.Pre_finite_inputs.S16x64x64x64 .f32)
    (h : Cert.Pre_finite_inputs.fn (F := Ideal) x0 x1 = fun _ => 1#1) :
    (∀ j, Cert.Spec.IsR (x0 j)) ∧ (∀ j, Cert.Spec.IsR (x1 j)) := by
  have h0 := congrFun h ValueIdx.ix0
  dsimp only [Cert.Pre_finite_inputs.fn] at h0
  obtain ⟨ha, hb⟩ := IntOp.andi_eq_one.1 h0
  refine ⟨fun j => ?_, fun j => ?_⟩
  · have e := Host.reduce_andi_all _ _ _ _ _ ha j
    exact isR_of_cmp (x0 j) e
  · have e := Host.reduce_andi_all _ _ _ _ _ hb j
    exact isR_of_cmp (x1 j) e

end Cert.Finite

end
-- ==== Proof.RealRow.lean ====
/-
  Facts about extended reals that are real numbers, as the reference's softmax chain needs them.

  At the ideal values every float operation is the exact one on the extended reals. Sums, products, differences,
  maxima, quotients by a nonzero real, square roots of nonnegative reals and exponentials of real numbers are real
  numbers again; the running maximum of a nonempty row of real numbers, started at -∞, is a real number. From these:
  a softmax over a row of real numbers — exp (z k - M) over the sum of these exponentials, M any real number — has
  entries summing to exactly 1, because the positive real denominator cancels; and over a CONSTANT row of K entries
  every softmax entry is exactly 1 / K.
-/
import Idealize.ShloMosaic.PureOps.Ideal
import Idealize.ShloMosaic.PureOps.Ideal.Laws
import Idealize.ShloMosaic.PureOps.Reduce
import proofs.«133341_j89653147337302_1_alg».proof.Proof.Spec

noncomputable section

open scoped BigOperators

namespace Cert.RealRow

open Cert.Spec Idealize.ShloMosaic

theorem isR_coe (r : ℝ) : IsR (r : EReal) := ⟨r, rfl⟩

theorem isR_zero : IsR (0 : EReal) := ⟨0, rfl⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.sub {x y : EReal} (hx : IsR x) (hy : IsR y) : IsR (x - y) := by
  obtain ⟨a, rfl⟩ := hx
  obtain ⟨b, rfl⟩ := hy
  exact ⟨a - b, (EReal.coe_sub a b).symm⟩

/-- The maximum of two real numbers, taken among the extended reals, is the real maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A finite sum of real numbers, taken among the extended reals, is the real sum. -/
theorem sum_coe {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem isR_sum {ι : Type} (s : Finset ι) (f : ι → EReal) (hf : ∀ k ∈ s, IsR (f k)) : IsR (∑ k ∈ s, f k) :=
  Finset.sum_induction f IsR (fun _ _ => IsR.add) isR_zero hf

/-- A real number over a nonzero real number is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The square root of a nonnegative real number is the real square root. -/
theorem sqrt_coe_nonneg {s : ℝ} (hs : 0 ≤ s) : Ideal.sqrt (s : EReal) = ((Real.sqrt s : ℝ) : EReal) := by
  rw [Ideal.sqrt_coe, if_neg (not_lt.2 hs)]

/-- The running maximum of a nonempty row of real numbers, started at -∞, is a real number. -/
theorem isR_fold_max {K : ℕ} (hK : 0 < K) (f : Fin K → EReal) (hf : ∀ k, IsR (f k)) :
    IsR ((Finset.univ : Finset (Fin K)).fold max ⊥ f) := by
  have htop : (Finset.univ : Finset (Fin K)).fold max ⊥ f < ⊤ :=
    (Finset.fold_max_lt _).2 ⟨bot_lt_top, fun k _ => by obtain ⟨r, hr⟩ := hf k; rw [hr]; exact EReal.coe_lt_top r⟩
  have hbot : ⊥ < (Finset.univ : Finset (Fin K)).fold max ⊥ f :=
    (Finset.lt_fold_max _).2 (Or.inr ⟨⟨0, hK⟩, Finset.mem_univ _, by
      obtain ⟨r, hr⟩ := hf ⟨0, hK⟩; rw [hr]; exact EReal.bot_lt_coe r⟩)
  exact ⟨_, (EReal.coe_toReal htop.ne hbot.ne').symm⟩

/-- The host's maximum over one axis of an array of real numbers, started at -∞, is a real number at every place. -/
theorem isR_hostMax {s t u : Shape} {a : Fin s.rank} (x : s.Idx → EReal) (init : u.Idx → EReal) (h' : s.ReducesTo [a] t)
    (h : s.Reduces [a] t) (hu : 0 < u.numel) (hpos : 0 < s.size a) (hinit : init (Shape.Idx.first hu) = ⊥)
    (hx : ∀ i, IsR (x i)) (j : t.Idx) : IsR (Host.reduce (max : EReal → EReal → EReal) x init h' hu j) := by
  rw [Host.reduce_eq_fold_single max x init h' h hu j, hinit]
  exact isR_fold_max hpos _ fun k => hx _

/-- The exponential of a difference of real numbers. -/
theorem exp_sub_coe (a b : ℝ) : Ideal.exp ((a : EReal) - (b : EReal)) = ((Real.exp (a - b) : ℝ) : EReal) := by
  rw [← EReal.coe_sub]; rfl

/-- SOFTMAX OVER A ROW OF REAL NUMBERS SUMS TO ONE: with `M` any real number (the row's maximum, in the program),
    the entries exp (z k - M) / ∑ j, exp (z j - M) sum to 1; the sums are the host's, started from 0. -/
theorem softmax_row_sum {K : ℕ} (hK : 0 < K) (z : Fin K → EReal) (hz : ∀ k, IsR (z k)) (M : EReal) (hM : IsR M) :
    (0 : EReal) + ∑ k : Fin K, Ideal.div (Ideal.exp (z k - M)) ((0 : EReal) + ∑ j : Fin K, Ideal.exp (z j - M)) = 1 := by
  obtain ⟨μ, rfl⟩ := hM
  choose ζ hζ using hz
  have hS : (0 : ℝ) < ∑ j : Fin K, Real.exp (ζ j - μ) :=
    Finset.sum_pos (fun j _ => Real.exp_pos _) ⟨⟨0, hK⟩, Finset.mem_univ _⟩
  have hexp : ∀ k, Ideal.exp (z k - (μ : EReal)) = ((Real.exp (ζ k - μ) : ℝ) : EReal) := fun k => by
    rw [hζ k, exp_sub_coe]
  have hden : (0 : EReal) + ∑ j : Fin K, Ideal.exp (z j - (μ : EReal)) = ((∑ j : Fin K, Real.exp (ζ j - μ) : ℝ) : EReal) := by
    rw [zero_add, ← sum_coe]
    exact Finset.sum_congr rfl fun j _ => hexp j
  rw [hden, zero_add]
  have hterm : ∀ k, Ideal.div (Ideal.exp (z k - (μ : EReal))) ((∑ j : Fin K, Real.exp (ζ j - μ) : ℝ) : EReal)
      = ((Real.exp (ζ k - μ) / ∑ j : Fin K, Real.exp (ζ j - μ) : ℝ) : EReal) := fun k => by
    rw [hexp k, div_coe_coe _ hS.ne']
  rw [Finset.sum_congr rfl fun k _ => hterm k, sum_coe, ← Finset.sum_div, div_self hS.ne', EReal.coe_one]

/-- SOFTMAX OVER A CONSTANT ROW IS UNIFORM: every entry exp (r - M) / ∑ j, exp (r - M) over K equal real numbers is
    exactly 1 / K, whatever the real number `M`. -/
theorem softmax_const_entry {K : ℕ} (hK : 0 < K) (r : ℝ) (M : EReal) (hM : IsR M) :
    Ideal.div (Ideal.exp ((r : EReal) - M)) ((0 : EReal) + ∑ _j : Fin K, Ideal.exp ((r : EReal) - M)) = ((1 / (K : ℝ) : ℝ) : EReal) := by
  obtain ⟨μ, rfl⟩ := hM
  have he : (0 : ℝ) < Real.exp (r - μ) := Real.exp_pos _
  have hKr : (0 : ℝ) < (K : ℝ) := by exact_mod_cast hK
  rw [exp_sub_coe, zero_add, sum_coe, Finset.sum_const, Finset.card_univ, Fintype.card_fin, nsmul_eq_mul,
    div_coe_coe _ (mul_pos hKr he).ne']
  congr 1
  field_simp

end Cert.RealRow

end
-- ==== Proof.Consts.lean ====
/-
  The f32 words of the reference and of the kernel as extended reals: -∞ (the running maxima's start), 1, 4096 (the
  row length the mean divides by), 50 (the similarity scale), the normalisation floor (only: a positive real number),
  and the kernel's scale 0x3F800800 = 4097 / 4096 = 1 + 1/4096.
-/
import Idealize.ShloMosaic.PureOps.Ideal
import Idealize.ShloMosaic.PureOps.Ideal.Laws

noncomputable section

namespace Cert.Consts

open Idealize.ShloMosaic

theorem ofBits_neg_inf : Ideal.ofBits .f32 0xFF800000#32 = ⊥ := by simp [Ideal.ofBits, Ideal.ieee]

theorem ofBits_one : Ideal.ofBits .f32 0x3F800000#32 = ((1 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_50 : Ideal.ofBits .f32 0x42480000#32 = ((50 : ℝ) : EReal) := by
  simp [Ideal.ofBits, Ideal.ieee, -EReal.coe_mul]; norm_num

/-- The kernel's scale: 1 + 2⁻¹². -/
theorem ofBits_scale : Ideal.ofBits .f32 0x3F800800#32 = ((4097 / 4096 : ℝ) : EReal) := by
  simp [Ideal.ofBits, Ideal.ieee, -EReal.coe_mul]; norm_num

/-- The floor under the norms is a positive real number (its exact value plays no part). -/
theorem ofBits_floor_pos : ∃ ε : ℝ, 0 < ε ∧ Ideal.ofBits .f32 0x2B8CBCCC#32 = (ε : EReal) := by
  simp [Ideal.ofBits, Ideal.ieee, -EReal.coe_mul]

end Cert.Consts

end
-- ==== Proof.RefWeight.lean ====
/-
  The reference's weight is the constant 1 + 1/4096.

  The reference normalises both inputs over the channel axis, takes all 4096 × 4096 similarities per batch entry,
  scales them by 50, and takes a softmax over each row; the mean of a softmax row; a softmax of the 4096 means; plus one.
  Under the precondition every input entry is a real number, so every similarity is a real number, so is each row's
  maximum, each exponential is a positive real number and each row sum a positive real number: the softmax row sums to
  exactly 1, its mean is exactly 1/4096 in every row. The second softmax therefore runs over a constant row, and each of
  its entries is exactly 1/4096 (the exponentials are equal and their 4096-fold sum cancels). The weight is
  1/4096 + 1 everywhere, and the reference's results are the inputs scaled by that constant — which is the number the
  kernel multiplies by, 4097/4096.
-/
import proofs.«133341_j89653147337302_1_alg».proof.Proof.Gen.ReferenceIdeal.Read
import proofs.«133341_j89653147337302_1_alg».proof.Proof.RealRow
import proofs.«133341_j89653147337302_1_alg».proof.Proof.Consts
import Idealize.ShloMosaic.PureOps.Reduce

noncomputable section

open scoped BigOperators

namespace Cert.ReferenceIdeal.RefValue

open Cert.ReferenceIdeal Cert.ReferenceIdeal.Gen Cert.ReferenceIdeal.Read Cert.Spec Cert.RealRow
open Idealize.ShloMosaic Idealize.ShloMosaic.TcCoe

/-! ### Input 0: its flattened entries, its squared norms over the channel axis, the floored norm, the normalised entries -/

theorem fst_flat_real (x0 : (⟨S16x64x64x64, .f32⟩ : BufTy).Contents (Elt Ideal)) (h0 : ∀ j, IsR (x0 j)) (i : S16x64x4096.Idx) :
    IsR (val_main_v0 (F := Ideal) x0 i) := by
  rw [val_main_v0_apply]; exact h0 _

/-- The sum of squares over the 64 channels is a nonnegative real number. -/
theorem fst_sumsq_nonneg (x0 : (⟨S16x64x64x64, .f32⟩ : BufTy).Contents (Elt Ideal)) (h0 : ∀ j, IsR (x0 j)) (i : S16x4096.Idx) :
    ∃ s : ℝ, 0 ≤ s ∧ val_main_v3 (F := Ideal) x0 i = (s : EReal) := by
  choose ρ hρ using fun j => fst_flat_real x0 h0 j
  refine ⟨∑ k : Fin 64, ρ (idx_main_v3 i k) * ρ (idx_main_v3 i k), Finset.sum_nonneg fun k _ => mul_self_nonneg _, ?_⟩
  rw [val_main_v3_apply, val_main_cst_apply, Ideal.ofBits_def, Ideal.ofBits_zero_f32, zero_add, ← sum_coe]
  refine Finset.sum_congr rfl fun k _ => ?_
  rw [val_main_v2_apply, hρ]
  exact (EReal.coe_mul _ _).symm

/-- The norm, floored by the positive constant, is a positive real number. -/
theorem fst_norm_pos (x0 : (⟨S16x64x64x64, .f32⟩ : BufTy).Contents (Elt Ideal)) (h0 : ∀ j, IsR (x0 j)) (j : S16x1x4096.Idx) :
    ∃ t : ℝ, 0 < t ∧ val_main_v7 (F := Ideal) x0 j = (t : EReal) := by
  obtain ⟨s, hs, e⟩ := fst_sumsq_nonneg x0 h0 (idx_main_v4 j)
  obtain ⟨ε, hε, eε⟩ := Cert.Consts.ofBits_floor_pos
  refine ⟨max (Real.sqrt s) ε, lt_max_of_lt_right hε, ?_⟩
  rw [val_main_v7_apply, val_main_v5_apply, val_main_v4_apply, e, val_main_v6_apply, val_main_cst_0_apply,
    Ideal.ofBits_def, eε, Ideal.hostUnary_sqrt_def, sqrt_coe_nonneg hs, Ideal.maximumf_def, max_coe]

/-- Each normalised entry — a real number over a positive real number — is a real number. -/
theorem fst_unit_real (x0 : (⟨S16x64x64x64, .f32⟩ : BufTy).Contents (Elt Ideal)) (h0 : ∀ j, IsR (x0 j)) (i : S16x64x4096.Idx) :
    IsR (val_main_v9 (F := Ideal) x0 i) := by
  obtain ⟨a, ea⟩ := fst_flat_real x0 h0 i
  obtain ⟨t, ht, et⟩ := fst_norm_pos x0 h0 (idx_main_v8 i)
  rw [val_main_v9_apply, val_main_v8_apply, ea, et, Ideal.hostDivf_def, div_coe_coe a ht.ne']
  exact isR_coe _

/-! ### Input 1: its flattened entries, its squared norms over the channel axis, the floored norm, the normalised entries -/

theorem snd_flat_real (x1 : (⟨S16x64x64x64, .f32⟩ : BufTy).Contents (Elt Ideal)) (h1 : ∀ j, IsR (x1 j)) (i : S16x64x4096.Idx) :
    IsR (val_main_v1 (F := Ideal) x1 i) := by
  rw [val_main_v1_apply]; exact h1 _

/-- The sum of squares over the 64 channels is a nonnegative real number. -/
theorem snd_sumsq_nonneg (x1 : (⟨S16x64x64x64, .f32⟩ : BufTy).Contents (Elt Ideal)) (h1 : ∀ j, IsR (x1 j)) (i : S16x4096.Idx) :
    ∃ s : ℝ, 0 ≤ s ∧ val_main_v11 (F := Ideal) x1 i = (s : EReal) := by
  choose ρ hρ using fun j => snd_flat_real x1 h1 j
  refine ⟨∑ k : Fin 64, ρ (idx_main_v11 i k) * ρ (idx_main_v11 i k), Finset.sum_nonneg fun k _ => mul_self_nonneg _, ?_⟩
  rw [val_main_v11_apply, val_main_cst_1_apply, Ideal.ofBits_def, Ideal.ofBits_zero_f32, zero_add, ← sum_coe]
  refine Finset.sum_congr rfl fun k _ => ?_
  rw [val_main_v10_apply, hρ]
  exact (EReal.coe_mul _ _).symm

/-- The norm, floored by the positive constant, is a positive real number. -/
theorem snd_norm_pos (x1 : (⟨S16x64x64x64, .f32⟩ : BufTy).Contents (Elt Ideal)) (h1 : ∀ j, IsR (x1 j)) (j : S16x1x4096.Idx) :
    ∃ t : ℝ, 0 < t ∧ val_main_v15 (F := Ideal) x1 j = (t : EReal) := by
  obtain ⟨s, hs, e⟩ := snd_sumsq_nonneg x1 h1 (idx_main_v12 j)
  obtain ⟨ε, hε, eε⟩ := Cert.Consts.ofBits_floor_pos
  refine ⟨max (Real.sqrt s) ε, lt_max_of_lt_right hε, ?_⟩
  rw [val_main_v15_apply, val_main_v13_apply, val_main_v12_apply, e, val_main_v14_apply, val_main_cst_2_apply,
    Ideal.ofBits_def, eε, Ideal.hostUnary_sqrt_def, sqrt_coe_nonneg hs, Ideal.maximumf_def, max_coe]

/-- Each normalised entry — a real number over a positive real number — is a real number. -/
theorem snd_unit_real (x1 : (⟨S16x64x64x64, .f32⟩ : BufTy).Contents (Elt Ideal)) (h1 : ∀ j, IsR (x1 j)) (i : S16x64x4096.Idx) :
    IsR (val_main_v17 (F := Ideal) x1 i) := by
  obtain ⟨a, ea⟩ := snd_flat_real x1 h1 i
  obtain ⟨t, ht, et⟩ := snd_norm_pos x1 h1 (idx_main_v16 i)
  rw [val_main_v17_apply, val_main_v16_apply, ea, et, Ideal.hostDivf_def, div_coe_coe a ht.ne']
  exact isR_coe _

/-! ### The scaled similarities and their row maxima -/

/-- Every scaled similarity — 50 times a sum of 64 products of normalised entries — is a real number. -/
theorem sim_real (x0 x1 : (⟨S16x64x64x64, .f32⟩ : BufTy).Contents (Elt Ideal)) (h0 : ∀ j, IsR (x0 j)) (h1 : ∀ j, IsR (x1 j)) (i : S16x4096x4096.Idx) :
    IsR (val_main_v20 (F := Ideal) x0 x1 i) := by
  rw [val_main_v20_apply, val_main_v18_apply, val_main_v19_apply, val_main_cst_3_apply, Ideal.ofBits_def,
    Cert.Consts.ofBits_50, Ideal.mulf_def]
  exact IsR.mul (isR_sum _ _ fun k _ => IsR.mul (fst_unit_real x0 h0 _) (snd_unit_real x1 h1 _)) (isR_coe 50)

/-- The running maximum over a row of similarities, started at -∞, is a real number. -/
theorem rowmax_real (x0 x1 : (⟨S16x64x64x64, .f32⟩ : BufTy).Contents (Elt Ideal)) (h0 : ∀ j, IsR (x0 j)) (h1 : ∀ j, IsR (x1 j)) (i : S16x4096.Idx) :
    IsR (val_main_v23 (F := Ideal) x0 x1 i) := by
  rw [val_main_v23_apply, val_main_v22_apply, val_main_cst_5_apply, Ideal.ofBits_def, Cert.Consts.ofBits_neg_inf,
    Ideal.maximumf_def, max_bot_left]
  unfold val_main_v21
  exact isR_hostMax (val_main_v20 (F := Ideal) x0 x1) (val_main_cst_4 (F := Ideal)) reducesTo_S16x4096x4096_S16x4096_d2
    (by decide) h_S_ (by decide) Cert.Consts.ofBits_neg_inf (fun j => sim_real x0 x1 h0 h1 j) i

/-! ### The first softmax: each row sums to one, so each row's mean is 1/4096 -/

/-- The row of an entry of a row. -/
theorem row_of_entry_max (i : S16x4096.Idx) (k : Fin 4096) : idx_main_v24 (idx_main_v25 (idx_main_v32 i k)) = i :=
  funext fun a => Fin.ext (by match a with | ⟨0, _⟩ => rfl | ⟨1, _⟩ => rfl)
theorem row_of_entry_sum (i : S16x4096.Idx) (k : Fin 4096) : idx_main_v29 (idx_main_v30 (idx_main_v32 i k)) = i :=
  funext fun a => Fin.ext (by match a with | ⟨0, _⟩ => rfl | ⟨1, _⟩ => rfl)
theorem entry_sum_eq (i : S16x4096.Idx) (k : Fin 4096) : idx_main_v28 i k = idx_main_v32 i k :=
  funext fun a => Fin.ext (by match a with | ⟨0, _⟩ => rfl | ⟨1, _⟩ => rfl | ⟨2, _⟩ => rfl)

/-- One exponential of the first softmax, with the row's maximum named. -/
theorem exp_entry (x0 x1 : (⟨S16x64x64x64, .f32⟩ : BufTy).Contents (Elt Ideal)) (i : S16x4096.Idx) (k : Fin 4096) :
    val_main_v27 (F := Ideal) x0 x1 (idx_main_v32 i k)
      = Ideal.exp (val_main_v20 (F := Ideal) x0 x1 (idx_main_v32 i k) - val_main_v23 (F := Ideal) x0 x1 i) := by
  rw [val_main_v27_apply, val_main_v26_apply, val_main_v25_apply, val_main_v24_apply, row_of_entry_max,
    Ideal.hostUnary_exp_def, Ideal.subf_def]

/-- Each softmax row sums to exactly one. -/
theorem rowsum_one (x0 x1 : (⟨S16x64x64x64, .f32⟩ : BufTy).Contents (Elt Ideal)) (h0 : ∀ j, IsR (x0 j)) (h1 : ∀ j, IsR (x1 j)) (i : S16x4096.Idx) :
    val_main_v32 (F := Ideal) x0 x1 i = 1 := by
  have e := softmax_row_sum (K := 4096) (by decide) (fun k => val_main_v20 (F := Ideal) x0 x1 (idx_main_v32 i k))
    (fun k => sim_real x0 x1 h0 h1 _) (val_main_v23 (F := Ideal) x0 x1 i) (rowmax_real x0 x1 h0 h1 i)
  rw [val_main_v32_apply, val_main_cst_7_apply, Ideal.ofBits_def, Ideal.ofBits_zero_f32]
  refine Eq.trans ?_ e
  refine congrArg ((0 : EReal) + ·) (Finset.sum_congr rfl fun k _ => ?_)
  rw [val_main_v31_apply, val_main_v30_apply, val_main_v29_apply, row_of_entry_sum, val_main_v28_apply,
    val_main_cst_6_apply, Ideal.ofBits_def, Ideal.ofBits_zero_f32, exp_entry, Ideal.hostDivf_def]
  refine congrArg (fun d => Ideal.div _ ((0 : EReal) + d)) (Finset.sum_congr rfl fun k' _ => ?_)
  rw [entry_sum_eq, exp_entry]

/-- Each row's mean is exactly 1/4096. -/
theorem mean_eq (x0 x1 : (⟨S16x64x64x64, .f32⟩ : BufTy).Contents (Elt Ideal)) (h0 : ∀ j, IsR (x0 j)) (h1 : ∀ j, IsR (x1 j)) (i : S16x4096.Idx) :
    val_main_v34 (F := Ideal) x0 x1 i = ((1 / 4096 : ℝ) : EReal) := by
  rw [val_main_v34_apply, rowsum_one x0 x1 h0 h1, val_main_v33_apply, val_main_cst_8_apply, Ideal.ofBits_def,
    Cert.Consts.ofBits_4096, Ideal.hostDivf_def, ← EReal.coe_one, div_coe_coe 1 (by norm_num : (4096 : ℝ) ≠ 0)]

/-! ### The second softmax runs over a constant row -/

/-- The running maximum over the means of one batch entry is a real number. -/
theorem meanmax_real (x0 x1 : (⟨S16x64x64x64, .f32⟩ : BufTy).Contents (Elt Ideal)) (h0 : ∀ j, IsR (x0 j)) (h1 : ∀ j, IsR (x1 j)) (b : S16.Idx) :
    IsR (val_main_v37 (F := Ideal) x0 x1 b) := by
  rw [val_main_v37_apply, val_main_v36_apply, val_main_cst_10_apply, Ideal.ofBits_def, Cert.Consts.ofBits_neg_inf,
    Ideal.maximumf_def, max_bot_left]
  unfold val_main_v35
  exact isR_hostMax (val_main_v34 (F := Ideal) x0 x1) (val_main_cst_9 (F := Ideal)) reducesTo_S16x4096_S16_d1
    (by decide) h_S_ (by decide) Cert.Consts.ofBits_neg_inf (fun j => ⟨_, mean_eq x0 x1 h0 h1 j⟩) b

/-- The batch entry of a mean, two ways, and of an entry of its row. -/
theorem batch_of_mean (i : S16x4096.Idx) : idx_main_v38 (idx_main_v39 i) = idx_main_v43 (idx_main_v44 i) :=
  funext fun a => Fin.ext (by match a with | ⟨0, _⟩ => rfl)
theorem batch_of_entry (b : S16.Idx) (k : Fin 4096) : idx_main_v38 (idx_main_v39 (idx_main_v42 b k)) = b :=
  funext fun a => Fin.ext (by match a with | ⟨0, _⟩ => rfl)

/-- One exponential of the second softmax, with the batch entry's maximum named: the same at every place of the row. -/
theorem exp_mean (x0 x1 : (⟨S16x64x64x64, .f32⟩ : BufTy).Contents (Elt Ideal)) (h0 : ∀ j, IsR (x0 j)) (h1 : ∀ j, IsR (x1 j)) (i : S16x4096.Idx) :
    val_main_v41 (F := Ideal) x0 x1 i
      = Ideal.exp (((1 / 4096 : ℝ) : EReal) - val_main_v37 (F := Ideal) x0 x1 (idx_main_v38 (idx_main_v39 i))) := by
  rw [val_main_v41_apply, val_main_v40_apply, mean_eq x0 x1 h0 h1, val_main_v39_apply, val_main_v38_apply,
    Ideal.hostUnary_exp_def, Ideal.subf_def]

/-- Every entry of the second softmax is exactly 1/4096. -/
theorem second_softmax_eq (x0 x1 : (⟨S16x64x64x64, .f32⟩ : BufTy).Contents (Elt Ideal)) (h0 : ∀ j, IsR (x0 j)) (h1 : ∀ j, IsR (x1 j)) (i : S16x4096.Idx) :
    val_main_v45 (F := Ideal) x0 x1 i = ((1 / 4096 : ℝ) : EReal) := by
  have e := softmax_const_entry (K := 4096) (by decide) (1 / 4096) (val_main_v37 (F := Ideal) x0 x1 (idx_main_v43 (idx_main_v44 i)))
    (meanmax_real x0 x1 h0 h1 _)
  rw [val_main_v45_apply, val_main_v44_apply, val_main_v43_apply, val_main_v42_apply, val_main_cst_11_apply,
    Ideal.ofBits_def, Ideal.ofBits_zero_f32, exp_mean x0 x1 h0 h1, batch_of_mean, Ideal.hostDivf_def]
  have e' : ((1 / ((4096 : ℕ) : ℝ) : ℝ) : EReal) = ((1 / 4096 : ℝ) : EReal) := by norm_num
  have hs : (∑ k : Fin 4096, val_main_v41 (F := Ideal) x0 x1 (idx_main_v42 (idx_main_v43 (idx_main_v44 i)) k))
      = ∑ _k : Fin 4096, Ideal.exp (((1 / 4096 : ℝ) : EReal) - val_main_v37 (F := Ideal) x0 x1 (idx_main_v43 (idx_main_v44 i))) :=
    Finset.sum_congr rfl fun k _ => by rw [exp_mean x0 x1 h0 h1, batch_of_entry]
  rw [hs]
  exact e.trans e'

/-- THE WEIGHT: 1/4096 + 1 at every place, which is the kernel's constant 4097/4096. -/
theorem weight_eq (x0 x1 : (⟨S16x64x64x64, .f32⟩ : BufTy).Contents (Elt Ideal)) (h0 : ∀ j, IsR (x0 j)) (h1 : ∀ j, IsR (x1 j)) (i : S16x4096.Idx) :
    val_main_v47 (F := Ideal) x0 x1 i = Ideal.ofBits .f32 0x3F800800#32 := by
  rw [val_main_v47_apply, second_softmax_eq x0 x1 h0 h1, val_main_v46_apply, val_main_cst_12_apply, Ideal.ofBits_def,
    Cert.Consts.ofBits_one, Ideal.addf_def, ← EReal.coe_add, Cert.Consts.ofBits_scale]
  norm_num

/-! ### The results -/

/-- The first result: the first input, flattened, scaled by the constant, restored. -/
theorem result0_eq (x0 x1 : (⟨S16x64x64x64, .f32⟩ : BufTy).Contents (Elt Ideal)) (h0 : ∀ j, IsR (x0 j)) (h1 : ∀ j, IsR (x1 j)) :
    val_main_v51 (F := Ideal) x0 x1 = scaled (F := Ideal) shapeCasts_S16x64x64x64_S16x64x4096 shapeCasts_S16x64x4096_S16x64x64x64 x0 := by
  unfold val_main_v51 scaled
  refine congrArg (fun y => shapeCast _ y shapeCasts_S16x64x4096_S16x64x64x64) (funext fun i => ?_)
  rw [val_main_v50_apply, val_main_v49_apply, val_main_v48_apply, weight_eq x0 x1 h0 h1]
  rfl

/-- The second result: the same of the second input. -/
theorem result1_eq (x0 x1 : (⟨S16x64x64x64, .f32⟩ : BufTy).Contents (Elt Ideal)) (h0 : ∀ j, IsR (x0 j)) (h1 : ∀ j, IsR (x1 j)) :
    val_main_v55 (F := Ideal) x0 x1 = scaled (F := Ideal) shapeCasts_S16x64x64x64_S16x64x4096 shapeCasts_S16x64x4096_S16x64x64x64 x1 := by
  unfold val_main_v55 scaled
  refine congrArg (fun y => shapeCast _ y shapeCasts_S16x64x4096_S16x64x64x64) (funext fun i => ?_)
  rw [val_main_v54_apply, val_main_v53_apply, val_main_v52_apply, weight_eq x0 x1 h0 h1]
  rfl

end Cert.ReferenceIdeal.RefValue

end
-- ==== Proof.KernelRun.lean ====
/-
  The idealized kernel's run, with its results named.

  The program flattens the two trailing axes of each argument ([16, 64, 64, 64] to [16, 64, 4096]), runs one grid of
  four points whose body multiplies a [4, 64, 4096] block of each flattened array by the constant with f32 word
  0x3F800800, and restores the four axes of both results. Here each result is read as one function of the argument:
  every grid point writes back the block of the scaled flattened array at its own block index, the four blocks
  cover the array, and the reshapes before and after the grid are the two shape casts of `Cert.Spec.scaled`.
-/
import proofs.«133341_j89653147337302_1_alg».proof.Proof.Spec
import proofs.«133341_j89653147337302_1_alg».proof.Proof.Gen.KernelIdeal.Frame
import Idealize.ShloMosaic.Lib.Pipeline.Value
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The body's payload -/

/-- The zero offsets of the body's one load and one store per window, however spelt. -/
theorem zero_offsets : (![0, 0, 0] : Fin 3 → Nat) = fun _ => 0 := funext fun a => by fin_cases a <;> rfl

/-- The first product: every entry of the loaded block times the constant (the cast to the block's own shape is the
    identity, the splat reads the constant everywhere). -/
theorem pay1_eq (x : Vec F S4x64x4096 .f32) :
    k0_pay1 x = fun j => FloatOps.mulf (x j) (FloatOps.ofBits .f32 0x3F800800#32) := by
  funext j
  show FloatOps.mulf (shapeCast S4x64x4096 x shapeCasts_S4x64x4096_S4x64x4096 j) (FloatOps.ofBits .f32 0x3F800800#32) = _
  rw [shapeCast_self]

/-- The second product, the same of the second block. -/
theorem pay2_eq (x : Vec F S4x64x4096 .f32) :
    k0_pay2 x = fun j => FloatOps.mulf (x j) (FloatOps.ofBits .f32 0x3F800800#32) := by
  funext j
  show FloatOps.mulf (shapeCast S4x64x4096 x shapeCasts_S4x64x4096_S4x64x4096 j) (FloatOps.ofBits .f32 0x3F800800#32) = _
  rw [shapeCast_self]

/-! ## What a grid point writes back -/

/-- The printed index maps, decided over the four points: each input window sits at the output windows' block index on
    every axis. -/
theorem index_agree : ∀ t : Fin cfg0.N, win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = win0_3.index t (0 : Fin 3)
    ∧ win0_1.index t (1 : Fin 3) = win0_3.index t (1 : Fin 3)
    ∧ win0_1.index t (2 : Fin 3) = win0_3.index t (2 : Fin 3) :=
  (by decide +kernel : ∀ t : Fin grid0.N, _)

/-- What point `t` writes back to the first result is block `t` of the scaled first flattened array. -/
theorem flushed2_eq (c : Dev nD) (t : Fin cfg0.N) :
    (dats m 0 c).flushed 2 t = ((cfg0.win 2).blk t).view.read (Elt F) (Cert.Spec.scaleFlat (V m c main_v0)) := by
  show (cfg0.win 2).cut (grid0.coords t) ((dats m 0 c).after 2 t) = _
  rw [after0_2]
  unfold out0_2
  rw [View.canon_unit_zero zero_offsets]
  simp only [View.ld_unit_zero (S := S4x64x4096) zero_offsets]
  rw [pay1_eq]
  obtain ⟨e0, e1, e2, -, -, -⟩ := index_agree t
  funext j
  show FloatOps.mulf (V m c main_v0 (((cfg0.win 0).blk t).view.emb j)) (FloatOps.ofBits .f32 0x3F800800#32)
    = FloatOps.mulf (V m c main_v0 (((cfg0.win 2).blk t).view.emb j)) (FloatOps.ofBits .f32 0x3F800800#32)
  have h0 : ((cfg0.win 0).blk t).view.emb j = ((cfg0.win 2).blk t).view.emb j := by
    funext a; apply Fin.ext
    match a with
    | ⟨0, _⟩ => show win0_0.index t (0 : Fin 3) * 4 + 1 * (j 0).val = win0_2.index t (0 : Fin 3) * 4 + 1 * (j 0).val; omega
    | ⟨1, _⟩ => show win0_0.index t (1 : Fin 3) * 64 + 1 * (j 1).val = win0_2.index t (1 : Fin 3) * 64 + 1 * (j 1).val; omega
    | ⟨2, _⟩ => show win0_0.index t (2 : Fin 3) * 4096 + 1 * (j 2).val = win0_2.index t (2 : Fin 3) * 4096 + 1 * (j 2).val; omega
  rw [h0]

/-- What point `t` writes back to the second result is block `t` of the scaled second flattened array. -/
theorem flushed3_eq (c : Dev nD) (t : Fin cfg0.N) :
    (dats m 0 c).flushed 3 t = ((cfg0.win 3).blk t).view.read (Elt F) (Cert.Spec.scaleFlat (V m c main_v1)) := by
  show (cfg0.win 3).cut (grid0.coords t) ((dats m 0 c).after 3 t) = _
  rw [after0_3]
  unfold out0_3
  rw [View.canon_unit_zero zero_offsets]
  simp only [View.ld_unit_zero (S := S4x64x4096) zero_offsets]
  rw [pay2_eq]
  obtain ⟨-, -, -, e0, e1, e2⟩ := index_agree t
  funext j
  show FloatOps.mulf (V m c main_v1 (((cfg0.win 1).blk t).view.emb j)) (FloatOps.ofBits .f32 0x3F800800#32)
    = FloatOps.mulf (V m c main_v1 (((cfg0.win 3).blk t).view.emb j)) (FloatOps.ofBits .f32 0x3F800800#32)
  have h1 : ((cfg0.win 1).blk t).view.emb j = ((cfg0.win 3).blk t).view.emb j := by
    funext a; apply Fin.ext
    match a with
    | ⟨0, _⟩ => show win0_1.index t (0 : Fin 3) * 4 + 1 * (j 0).val = win0_3.index t (0 : Fin 3) * 4 + 1 * (j 0).val; omega
    | ⟨1, _⟩ => show win0_1.index t (1 : Fin 3) * 64 + 1 * (j 1).val = win0_3.index t (1 : Fin 3) * 64 + 1 * (j 1).val; omega
    | ⟨2, _⟩ => show win0_1.index t (2 : Fin 3) * 4096 + 1 * (j 2).val = win0_3.index t (2 : Fin 3) * 4096 + 1 * (j 2).val; omega
  rw [h1]

/-! ## The four blocks cover the flattened array -/

/-- An index of the first result's array is in point `t`'s block iff each coordinate is in the block's range. -/
theorem mem_blk2 (t : Fin cfg0.N) (i : S16x64x4096.Idx) :
    i ∈ ((cfg0.win 2).blk t).view.set ↔ ∀ a : Fin 3, win0_2.index t a * S4x64x4096.size a ≤ (i a).val ∧ (i a).val < win0_2.index t a * S4x64x4096.size a + S4x64x4096.size a := by
  show i ∈ ((View.whole main_v2_0).slice (win0_2.rect t)).set ↔ _
  rw [View.set_slice_whole, Rect.mem_set_unit]
  exact Iff.rfl

/-- The same for the second result's array. -/
theorem mem_blk3 (t : Fin cfg0.N) (i : S16x64x4096.Idx) :
    i ∈ ((cfg0.win 3).blk t).view.set ↔ ∀ a : Fin 3, win0_3.index t a * S4x64x4096.size a ≤ (i a).val ∧ (i a).val < win0_3.index t a * S4x64x4096.size a + S4x64x4096.size a := by
  show i ∈ ((View.whole main_v2_1).slice (win0_3.rect t)).set ↔ _
  rw [View.set_slice_whole, Rect.mem_set_unit]
  exact Iff.rfl

/-- Each of the four blocks along the leading axis is some point's, for both results (decided). -/
theorem index_onto : ∀ q : Fin 4, ∃ t : Fin cfg0.N, win0_2.index t = ![q.val, 0, 0] ∧ win0_3.index t = ![q.val, 0, 0] :=
  (by decide +kernel : ∀ q : Fin 4, ∃ t : Fin grid0.N, win0_2.index t = ![q.val, 0, 0] ∧ win0_3.index t = ![q.val, 0, 0])

/-- Every index of the first result's array is in the block of the point whose number is its leading coordinate
    divided by four. -/
theorem cover2 (i : S16x64x4096.Idx) :
    ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 4096 := (i 2).isLt
  obtain ⟨t, ht, -⟩ := index_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 64 ≤ (i 1).val ∧ (i 1).val < win0_2.index t (1 : Fin 3) * 64 + 64; omega
  | ⟨2, _⟩ => show win0_2.index t (2 : Fin 3) * 4096 ≤ (i 2).val ∧ (i 2).val < win0_2.index t (2 : Fin 3) * 4096 + 4096; omega

/-- The same for the second result's array. -/
theorem cover3 (i : S16x64x4096.Idx) :
    ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 4096 := (i 2).isLt
  obtain ⟨t, -, ht⟩ := index_onto ⟨(i 0).val / 4, by omega⟩
  have q0 : win0_3.index t (0 : Fin 3) = (i 0).val / 4 := congrFun ht 0
  have q1 : win0_3.index t (1 : Fin 3) = 0 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 64 ≤ (i 1).val ∧ (i 1).val < win0_3.index t (1 : Fin 3) * 64 + 64; omega
  | ⟨2, _⟩ => show win0_3.index t (2 : Fin 3) * 4096 ≤ (i 2).val ∧ (i 2).val < win0_3.index t (2 : Fin 3) * 4096 + 4096; omega

/-- The first result's array after the grid: the scaled first flattened array. -/
theorem final2 (c : Dev nD) : (dats m 0 c).arrAt 2 cfg0.N = Cert.Spec.scaleFlat (V m c main_v0) :=
  (dats m 0 c).arrAt_eq_of_cover 2 (Cert.Spec.scaleFlat (V m c main_v0)) (fun t _ => flushed2_eq m c t) cover2

/-- The second result's array after the grid: the scaled second flattened array. -/
theorem final3 (c : Dev nD) : (dats m 0 c).arrAt 3 cfg0.N = Cert.Spec.scaleFlat (V m c main_v1) :=
  (dats m 0 c).arrAt_eq_of_cover 3 (Cert.Spec.scaleFlat (V m c main_v1)) (fun t _ => flushed3_eq m c t) cover3

/-! ## The reshapes around the grid -/

/-- The first flattened array as the grid finds it: the first argument with its two trailing axes merged. -/
theorem V_main_v0 (c : Dev nD) :
    V m c main_v0 = shapeCast S16x64x4096 (m ((c.tc : Thread nD τ).loc main_arg0)) shapeCasts_S16x64x64x64_S16x64x4096 := by
  show StableHlo.after hostOps0 (fun b => m (c, b)) (Proc.devRef .tc main_v0) = _
  after_results
  rfl

/-- The second flattened array as the grid finds it: the second argument with its two trailing axes merged. -/
theorem V_main_v1 (c : Dev nD) :
    V m c main_v1 = shapeCast S16x64x4096 (m ((c.tc : Thread nD τ).loc main_arg1)) shapeCasts_S16x64x64x64_S16x64x4096 := by
  show StableHlo.after hostOps0 (fun b => m (c, b)) (Proc.devRef .tc main_v1) = _
  after_results
  rfl

/-- The first result's array as the lines after the grid find it. -/
theorem tail_main_v2_0 (c : Dev nD) :
    Pipeline.withArrays spec0 c (V0 m c) (fun w => (dats m 0 c).arrAt w cfg0.N) (Proc.devRef .tc main_v2_0)
      = Cert.Spec.scaleFlat (V m c main_v0) :=
  (Pipeline.withArrays_arr spec0 launch0.win.arr_inj c _ _ 2).trans (final2 m c)

/-- The second result's array as the lines after the grid find it. -/
theorem tail_main_v2_1 (c : Dev nD) :
    Pipeline.withArrays spec0 c (V0 m c) (fun w => (dats m 0 c).arrAt w cfg0.N) (Proc.devRef .tc main_v2_1)
      = Cert.Spec.scaleFlat (V m c main_v1) :=
  (Pipeline.withArrays_arr spec0 launch0.win.arr_inj c _ _ 3).trans (final3 m c)

/-- The first result after the reshape that follows the grid: the scaled flattened array with its four axes restored. -/
theorem W_main_v3 (c : Dev nD) :
    Pipeline.afterTail₀ cfgs (dats m) 0 (V0 m) [hostOps1] c main_v3
      = shapeCast S16x64x64x64 (Cert.Spec.scaleFlat (V m c main_v0)) shapeCasts_S16x64x4096_S16x64x64x64 := by
  unfold Pipeline.afterTail₀
  show StableHlo.after hostOps1 _ (Proc.devRef .tc main_v3) = _
  after_results
  rw [tail_main_v2_0]
  rfl

/-- The second result after the reshape that follows the grid. -/
theorem W_main_v4 (c : Dev nD) :
    Pipeline.afterTail₀ cfgs (dats m) 0 (V0 m) [hostOps1] c main_v4
      = shapeCast S16x64x64x64 (Cert.Spec.scaleFlat (V m c main_v1)) shapeCasts_S16x64x4096_S16x64x64x64 := by
  unfold Pipeline.afterTail₀
  show StableHlo.after hostOps1 _ (Proc.devRef .tc main_v4) = _
  after_results
  rw [tail_main_v2_1]
  rfl

/-! ## The run, read -/

/-- Every weakly fair execution of the program terminates with each result at the scaled argument — flatten, scale,
    restore — and both arguments as launched. -/
theorem run : θ_run defs (onTc (τ := τ) (main (F := F))) ⟨m, fun _ => 0, ρ⟩ fun r => ∀ c : Dev nD,
      r.2.mem ((c.tc : Thread nD τ).loc main_v3) = Cert.Spec.scaled shapeCasts_S16x64x64x64_S16x64x4096 shapeCasts_S16x64x4096_S16x64x64x64 (m ((c.tc : Thread nD τ).loc main_arg0))
      ∧ r.2.mem ((c.tc : Thread nD τ).loc main_v4) = Cert.Spec.scaled shapeCasts_S16x64x64x64_S16x64x4096 shapeCasts_S16x64x4096_S16x64x64x64 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans
        ((W_main_v3 m c).trans (by rw [V_main_v0]; rfl)),
      ((h c).2 main_v4 (Pipeline.mem_restRefs_of main_v4 (by decide) (by decide))).trans
        ((W_main_v4 m c).trans (by rw [V_main_v1]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.lean ====
/-
  The claim: a kernel that multiplies both inputs by the one constant 4097/4096 = 1 + 1/4096, against a reference that
  multiplies them by softmax (mean (softmax (50 · similarities))) + 1.

  At the ideal values (extended reals, exact operations) and on inputs whose entries are real numbers — the
  precondition — the reference's weight IS that constant: each softmax row over the 4096 real similarities sums to
  exactly 1, so every row's mean is exactly 1/4096; the second softmax then runs over a constant row and is exactly
  1/4096 everywhere; plus one (Proof/RefWeight.lean, over Proof/RealRow.lean's facts about real entries). The kernel's
  results are the inputs, flattened to [16, 64, 4096], scaled block by block over a grid of four blocks of four batch
  entries, and restored (Proof/KernelRun.lean). Both sides are the one function `Cert.Spec.scaled` of the inputs.
  The three frames are the generated ones (the reference's is its run with the results dropped); the idealization
  rewrote nothing, so `preserves` is trivial.
-/
import proofs.«133341_j89653147337302_1_alg».proof.Defs
import proofs.«133341_j89653147337302_1_alg».proof.Proof.Gen.Kernel
import proofs.«133341_j89653147337302_1_alg».proof.Proof.Gen.Kernel.Skeleton
import proofs.«133341_j89653147337302_1_alg».proof.Proof.Gen.Kernel.Launch
import proofs.«133341_j89653147337302_1_alg».proof.Proof.Gen.Kernel.Points
import proofs.«133341_j89653147337302_1_alg».proof.Proof.Gen.Kernel.Frame
import proofs.«133341_j89653147337302_1_alg».proof.Proof.Gen.KernelIdeal
import proofs.«133341_j89653147337302_1_alg».proof.Proof.Gen.KernelIdeal.Skeleton
import proofs.«133341_j89653147337302_1_alg».proof.Proof.Gen.KernelIdeal.Launch
import proofs.«133341_j89653147337302_1_alg».proof.Proof.Gen.KernelIdeal.Points
import proofs.«133341_j89653147337302_1_alg».proof.Proof.Gen.KernelIdeal.Frame
import proofs.«133341_j89653147337302_1_alg».proof.Proof.Gen.ReferenceIdeal
import proofs.«133341_j89653147337302_1_alg».proof.Proof.Gen.Pre_finite_inputs
import proofs.«133341_j89653147337302_1_alg».proof.Proof.Gen.ReferenceIdeal.Run
import proofs.«133341_j89653147337302_1_alg».proof.Proof.Gen.ReferenceIdeal.Read
import proofs.«133341_j89653147337302_1_alg».proof.Proof.FiniteInputs
import proofs.«133341_j89653147337302_1_alg».proof.Proof.RefWeight
import proofs.«133341_j89653147337302_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the inputs scaled by 4097/4096: the kernel by its run, the reference because under the
    precondition its weight is that constant. -/
theorem algebraic : Cert.algebraic_KernelIdeal_ReferenceIdeal := by
  intro m ρ m' ρ' hpre hagree
  have hreal := fun c => Cert.Finite.real_of_pre _ _ (hpre c)
  refine ⟨_, _, Cert.KernelIdeal.Hand.run (F := Ideal) m ρ, ?_⟩
  refine (θ_run Cert.ReferenceIdeal.defs _ _).mono (fun _ h c => ?_) (Cert.ReferenceIdeal.Value.run (F := Ideal) m' ρ')
  obtain ⟨e0, e1, k0, k1⟩ := h c
  refine ⟨e0.trans ?_, e1.trans ?_, k0, k1⟩
  · rw [Cert.ReferenceIdeal.Read.val_main_v51_eq, (hagree c).1, (hagree c).2]
    exact Cert.ReferenceIdeal.RefValue.result0_eq _ _ (hreal c).1 (hreal c).2
  · rw [Cert.ReferenceIdeal.Read.val_main_v55_eq, (hagree c).1, (hagree c).2]
    exact Cert.ReferenceIdeal.RefValue.result1_eq _ _ (hreal c).1 (hreal c).2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
